-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S512x512 : Shape := ⟨2, ![512, 512]⟩
abbrev S512 : Shape := ⟨1, ![512]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S65536x256 .f32) (main_arg1 : FVec F S65536x512 .f32) (main_arg2 : FVec F S512x512 .f32) (main_arg3 : FVec F S512 .f32) (main_arg4 : FVec F S256x256 .f32) (main_arg5 : FVec F S256 .f32) (main_arg6 : FVec F S256x256 .f32) (main_arg7 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S65536x256 : Shape := ⟨2, ![65536, 256]⟩
abbrev S65536x512 : Shape := ⟨2, ![65536, 512]⟩
abbrev S512x512 : Shape := ⟨2, ![512, 512]⟩
abbrev S512 : Shape := ⟨1, ![512]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S2048x256 : Shape := ⟨2, ![2048, 256]⟩
abbrev S2048x512 : Shape := ⟨2, ![2048, 512]⟩

abbrev nBuf : Space → Nat
  | .hbm => 21
  | .vmem => 14
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S512x256, .bf16⟩
  | .hbm, ⟨10, _⟩ => ⟨S512x256, .f32⟩
  | .hbm, ⟨11, _⟩ => ⟨S512x256, .bf16⟩
  | .hbm, ⟨12, _⟩ => ⟨S256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S256x256, .bf16⟩
  | .hbm, ⟨17, _⟩ => ⟨S256x256, .bf16⟩
  | .hbm, ⟨18, _⟩ => ⟨S1x256, .f32⟩
  | .hbm, ⟨19, _⟩ => ⟨S1x256, .f32⟩
  | .hbm, ⟨20, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S512x256, .bf16⟩
  | .local _ .vmem, ⟨5, _⟩ => ⟨S1x256, .f32⟩
  | .local _ .vmem, ⟨6, _⟩ => ⟨S512x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S512x512_S512x256_0_0 : S512x512.Slices ![0, 0] S512x256
  bitsLt_bf16_f32 : FTy.bits .bf16 < FTy.bits .f32
  slices_S512x512_S512x256_0_256 : S512x512.Slices ![0, 256] S512x256
  slices_S512_S256_0 : S512.Slices ![0] S256
  shapeCasts_S256_S1x256 : S256.ShapeCasts S1x256
  slices_S512_S256_256 : S512.Slices ![256] S256
  inb_S2048x256_S2048x256_0_0 : ∀ a, (![0, 0] : Fin 2 → Nat) a + S2048x256.size a ≤ S2048x256.size a
  h_S2048x256 : 0 < S2048x256.numel
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S65536x256.size a
  hwx0_10 : ∀ i : grid0.Coords, EltTy.bits .f32 = 32 ∨ (Rect.block (s := S65536x256) S2048x256.size (cc0_transform_10 i) (hinb0_10 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v10) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v11) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S2048x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S512x512 : Shape := ⟨2, ![512, 512]⟩
abbrev S512 : Shape := ⟨1, ![512]⟩
abbrev S256x256 : Shape := ⟨2, ![256, 256]⟩
abbrev S256 : Shape := ⟨1, ![256]⟩
abbrev S1x512 : Shape := ⟨2, ![1, 512]⟩
abbrev S_ : Shape := ⟨0, ![]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S65536x512, .f32⟩
  | .hbm, ⟨9, _⟩ => ⟨S1x512, .f32⟩
  | .hbm, ⟨10, _⟩ => ⟨S65536x512, .f32⟩
  | .hbm, ⟨11, _⟩ => ⟨S65536x512, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S1x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S1x256, .f32⟩
  | .hbm, ⟨28, _⟩ => ⟨S65536x256, .f32⟩
  | .hbm, ⟨29, _⟩ => ⟨S65536x256, .f32⟩
  | .hbm, ⟨30, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x256_0_0 : S65536x512.Slices ![0, 0] S65536x256
  slices_S65536x512_S65536x256_0_256 : S65536x512.Slices ![0, 256] S65536x256
  bcast_S_S65536x256 : S_.BroadcastsInDim S65536x256 (![] : Fin 0 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x512_S512x512_S65536x512_1_0_0_1_n_n_wf : DotDims.WF S65536x512 S512x512 S65536x512 [1] [0] [0] [1] [] []
  dot_S65536x256_S256x256_S65536x256_1_0_0_1_n_n_wf : DotDims.WF S65536x256 S256x256 S65536x256 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.FilmNet.lean ====
/-
  The network both programs compute, one row at a time, over the extended reals.

  A row `x` of 256 features is modulated by its conditioning row `cnd` of 512 features: an affine layer of
  `cnd` gives a scale, a second affine layer of `cnd` gives a shift, and the first hidden row is the
  rectified  scale * x + shift.  Two more affine layers follow, the first rectified, and the input row is
  added back at the end:

      out j = (∑ k, h1 k * w2 k j + b2 j) + x j,
      h1 k  = max (∑ l, h0 l * w1 l k + b1 k) 0,
      h0 l  = max ((∑ r, cnd r * wg r l + bg l) * x l + (∑ r, cnd r * wb r l + bb l)) 0.

  Every entry of the result depends on ONE row of `x` and of `cnd` and on the whole weights, so the result
  array is this row function applied row by row; the scale and shift layers are the left and the right half
  of one 512 × 512 weight and of one bias of 512 entries.
-/
import Idealize.ShloMosaic.Lib.ValueIdx
import Idealize.ShloMosaic.PureOps.Ideal.Laws

noncomputable section

namespace Cert.FilmNet

open Idealize.ShloMosaic Idealize.ShloMosaic.ValueIdx

/-- The rectifiers' threshold: the float word of +0.0 at the ideal values (never evaluated: both programs
    compare with the same word). -/
abbrev zeroWord : EReal := Ideal.ofBits .f32 0x00000000#32

/-- One entry of an affine layer: the row `a` against column `j` of `w`, plus the bias' entry `j`. -/
def affine {K N : ℕ} (a : Fin K → EReal) (w : Fin K → Fin N → EReal) (b : Fin N → EReal) (j : Fin N) : EReal :=
  ∑ k : Fin K, a k * w k j + b j

/-- The rectifier. -/
def rect (v : EReal) : EReal := max v zeroWord

/-- The first hidden row: the input row scaled and shifted by two affine layers of the conditioning row, rectified. -/
def modulated (x : Fin 256 → EReal) (cnd : Fin 512 → EReal) (wg wb : Fin 512 → Fin 256 → EReal)
    (bg bb : Fin 256 → EReal) (j : Fin 256) : EReal :=
  rect (affine cnd wg bg j * x j + affine cnd wb bb j)

/-- The second hidden row: an affine layer of the first, rectified. -/
def hidden (x : Fin 256 → EReal) (cnd : Fin 512 → EReal) (wg wb : Fin 512 → Fin 256 → EReal)
    (bg bb : Fin 256 → EReal) (w1 : Fin 256 → Fin 256 → EReal) (b1 : Fin 256 → EReal) (j : Fin 256) : EReal :=
  rect (affine (modulated x cnd wg wb bg bb) w1 b1 j)

/-- The output row: an affine layer of the second hidden row, plus the input row. -/
def outRow (x : Fin 256 → EReal) (cnd : Fin 512 → EReal) (wg wb : Fin 512 → Fin 256 → EReal)
    (bg bb : Fin 256 → EReal) (w1 : Fin 256 → Fin 256 → EReal) (b1 : Fin 256 → EReal)
    (w2 : Fin 256 → Fin 256 → EReal) (b2 : Fin 256 → EReal) (j : Fin 256) : EReal :=
  affine (hidden x cnd wg wb bg bb w1 b1) w2 b2 j + x j

/-- Column `j` of the left half of a 512-wide axis. -/
abbrev lo (j : Fin 256) : Fin 512 := ⟨j.val, by have := j.isLt; omega⟩

/-- Column `j` of the right half of a 512-wide axis. -/
abbrev hi (j : Fin 256) : Fin 512 := ⟨256 + j.val, by have := j.isLt; omega⟩

/-- The result array as ONE function of the eight argument arrays: entry (n, j) is the output row of row n of
    `x` and of `cnd`, the scale layer the left half of `wf` / `bf`, the shift layer the right half. -/
def result (x : (⟨2, ![65536, 256]⟩ : Shape).Idx → EReal) (cnd : (⟨2, ![65536, 512]⟩ : Shape).Idx → EReal)
    (wf : (⟨2, ![512, 512]⟩ : Shape).Idx → EReal) (bf : (⟨1, ![512]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨2, ![65536, 256]⟩ : Shape).Idx → EReal := fun i =>
  outRow (fun j => x (ix2 (i 0) j)) (fun k => cnd (ix2 (i 0) k))
    (fun k j => wf (ix2 k (lo j))) (fun k j => wf (ix2 k (hi j)))
    (fun j => bf (ix1 (lo j))) (fun j => bf (ix1 (hi j)))
    (fun k j => w1 (ix2 k j)) (fun j => b1 (ix1 j))
    (fun k j => w2 (ix2 k j)) (fun j => b2 (ix1 j)) (i 1)

end Cert.FilmNet

end
-- ==== Proof.RefRow.lean ====
/-
  The reference, stage by stage, is the row network of FilmNet.

  The reference forms the 512-wide product  cond · W_film + b_film  once and cuts it into its left half (the
  scale) and its right half (the shift); an entry of either half is one affine entry at column j, respectively
  256 + j.  Then  max (scale * x + shift) 0,  two more products with bias, the first rectified, and the input
  added back: entry (n, j) of its result is `FilmNet.outRow` of row n of x and of cond.
-/
import proofs.«414267_j76768245448977_3_alg».proof.Proof.Gen.ReferenceIdeal.Read
import proofs.«414267_j76768245448977_3_alg».proof.Proof.FilmNet

noncomputable section

namespace Cert.ReferenceIdeal.RefRow

open Cert.ReferenceIdeal Cert.ReferenceIdeal.Read Idealize.ShloMosaic Idealize.ShloMosaic.ValueIdx Cert.FilmNet

variable (x0 : (⟨S65536x256, .f32⟩ : BufTy).Contents (Elt Ideal)) (x1 : (⟨S65536x512, .f32⟩ : BufTy).Contents (Elt Ideal))
  (x2 : (⟨S512x512, .f32⟩ : BufTy).Contents (Elt Ideal)) (x3 : (⟨S512, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- Entry (n, j) of the 512-wide product with bias: one affine entry of row n of cond. -/
theorem wide_entry (n : Fin 65536) (j : Fin 512) :
    val_main_v3 (F := Ideal) x1 x2 x3 (ix2 n j)
      = affine (fun k => x1 (ix2 n k)) (fun k j => x2 (ix2 k j)) (fun j => x3 (ix1 j)) j := by
  rw [val_main_v3_apply, val_main_v0_apply, val_main_v2_apply, val_main_v1_apply]
  have el : ∀ k : Fin 512, lidx_main_v0 (ix2 n j) k = ix2 n k := fun k => funext fun a => Fin.ext (by
    match a with | ⟨0, _⟩ => rfl | ⟨1, _⟩ => rfl)
  have er : ∀ k : Fin 512, ridx_main_v0 (ix2 n j) k = ix2 k j := fun k => funext fun a => Fin.ext (by
    match a with | ⟨0, _⟩ => rfl | ⟨1, _⟩ => rfl)
  have eb : idx_main_v1 (idx_main_v2 (ix2 n j)) = ix1 j := funext fun a => Fin.ext (by
    match a with | ⟨0, _⟩ => rfl)
  simp only [el, er, eb]
  rfl

/-- Entry (n, j) of the first hidden array: the modulated, rectified row. -/
theorem modulated_entry (n : Fin 65536) (j : Fin 256) :
    val_main_v8 (F := Ideal) x0 x1 x2 x3 (ix2 n j)
      = modulated (fun j => x0 (ix2 n j)) (fun k => x1 (ix2 n k))
          (fun k j => x2 (ix2 k (lo j))) (fun k j => x2 (ix2 k (hi j)))
          (fun j => x3 (ix1 (lo j))) (fun j => x3 (ix1 (hi j))) j := by
  rw [val_main_v8_apply, val_main_v7_apply, val_main_v6_apply, val_main_v4_apply, val_main_v5_apply,
    val_main_call0_v0_apply, val_main_call0_cst_apply]
  have e4 : idx_main_v4 (ix2 n j) = ix2 n (lo j) := funext fun a => Fin.ext (by
    match a with | ⟨0, _⟩ => rfl | ⟨1, _⟩ => rfl)
  have e5 : idx_main_v5 (ix2 n j) = ix2 n (hi j) := funext fun a => Fin.ext (by
    match a with | ⟨0, _⟩ => rfl | ⟨1, _⟩ => rfl)
  rw [e4, e5, wide_entry, wide_entry]
  rfl

/-- Entry (n, j) of the second hidden array. -/
theorem hidden_entry (n : Fin 65536) (j : Fin 256) :
    val_main_v13 (F := Ideal) x0 x1 x2 x3 x4 x5 (ix2 n j)
      = hidden (fun j => x0 (ix2 n j)) (fun k => x1 (ix2 n k))
          (fun k j => x2 (ix2 k (lo j))) (fun k j => x2 (ix2 k (hi j)))
          (fun j => x3 (ix1 (lo j))) (fun j => x3 (ix1 (hi j)))
          (fun k j => x4 (ix2 k j)) (fun j => x5 (ix1 j)) j := by
  rw [val_main_v13_apply, val_main_v12_apply, val_main_v9_apply, val_main_v11_apply, val_main_v10_apply,
    val_main_call1_v0_apply, val_main_call1_cst_apply]
  have el : ∀ k : Fin 256, lidx_main_v9 (ix2 n j) k = ix2 n k := fun k => funext fun a => Fin.ext (by
    match a with | ⟨0, _⟩ => rfl | ⟨1, _⟩ => rfl)
  have er : ∀ k : Fin 256, ridx_main_v9 (ix2 n j) k = ix2 k j := fun k => funext fun a => Fin.ext (by
    match a with | ⟨0, _⟩ => rfl | ⟨1, _⟩ => rfl)
  have eb : idx_main_v10 (idx_main_v11 (ix2 n j)) = ix1 j := funext fun a => Fin.ext (by
    match a with | ⟨0, _⟩ => rfl)
  simp only [el, er, eb, modulated_entry]
  rfl

/-- Entry (n, j) of the reference's result: the output row of row n. -/
theorem out_entry (n : Fin 65536) (j : Fin 256) :
    val_main_v18 (F := Ideal) x0 x1 x2 x3 x4 x5 x6 x7 (ix2 n j)
      = outRow (fun j => x0 (ix2 n j)) (fun k => x1 (ix2 n k))
          (fun k j => x2 (ix2 k (lo j))) (fun k j => x2 (ix2 k (hi j)))
          (fun j => x3 (ix1 (lo j))) (fun j => x3 (ix1 (hi j)))
          (fun k j => x4 (ix2 k j)) (fun j => x5 (ix1 j))
          (fun k j => x6 (ix2 k j)) (fun j => x7 (ix1 j)) j := by
  rw [val_main_v18_apply, val_main_v17_apply, val_main_v14_apply, val_main_v16_apply, val_main_v15_apply]
  have el : ∀ k : Fin 256, lidx_main_v14 (ix2 n j) k = ix2 n k := fun k => funext fun a => Fin.ext (by
    match a with | ⟨0, _⟩ => rfl | ⟨1, _⟩ => rfl)
  have er : ∀ k : Fin 256, ridx_main_v14 (ix2 n j) k = ix2 k j := fun k => funext fun a => Fin.ext (by
    match a with | ⟨0, _⟩ => rfl | ⟨1, _⟩ => rfl)
  have eb : idx_main_v15 (idx_main_v16 (ix2 n j)) = ix1 j := funext fun a => Fin.ext (by
    match a with | ⟨0, _⟩ => rfl)
  simp only [el, er, eb, hidden_entry]
  rfl

/-- The reference's result array IS `FilmNet.result` of its eight arguments. -/
theorem result_eq :
    val_main_v18 (F := Ideal) x0 x1 x2 x3 x4 x5 x6 x7 = result x0 x1 x2 x3 x4 x5 x6 x7 := by
  funext i
  obtain ⟨n, j, rfl⟩ : ∃ (n : Fin 65536) (j : Fin 256), i = ix2 n j := ⟨i 0, i 1, eq_ix2 i⟩
  exact out_entry x0 x1 x2 x3 x4 x5 x6 x7 n j

end Cert.ReferenceIdeal.RefRow

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibBiasedDot.lean ====
/-
  An affine layer as a kernel body spells it, read at an entry.

  The body multiplies a block [M, K] by a weight [K, N] that first passes through a shape cast to its own
  shape, accumulating into the zero splat, and adds a bias kept as one row [1, N]: the row passes through a
  shape cast to its own shape and is broadcast over the M rows. At the ideal values entry (p, q) of that
  sum is the textbook

      ∑ k, l (p, k) * w (k, q)  +  b (0, q).

  Stated for any plain product record (left axis 1 contracted with right axis 0, no batch axes), any
  extents and element formats.
-/
import proofs.«414267_j76768245448977_3_alg».proof.Proof.LibPlainDot
import Idealize.ShloMosaic.Lib.ValueLayout
import Idealize.ShloMosaic.Lib.Pipeline.Value

noncomputable section

namespace Idealize.ShloMosaic.BiasedDot

open Idealize.ShloMosaic Idealize.ShloMosaic.ValueIdx

/-- Entry (p, q) of  product-into-zero + bias row broadcast over the rows. -/
theorem apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision)
    (l : FVec Ideal ⟨2, ![M, K]⟩ φ₁) (w : FVec Ideal ⟨2, ![K, N]⟩ φ₂)
    (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    addf (matmul d prec l (shapeCast ⟨2, ![K, N]⟩ w hw) (constant (F := Ideal) ⟨2, ![M, N]⟩ .f32 0x00000000#32))
        (broadcastTo ⟨2, ![M, N]⟩ (shapeCast ⟨2, ![1, N]⟩ b hb) hbc) (ix2 p q)
      = ∑ k : Fin K, l (ix2 p k) * w (ix2 k q) + b (ix2 (0 : Fin 1) q) := by
  rw [addf_apply, shapeCast_self, shapeCast_self, broadcastTo_1b_ab_apply]
  exact congrArg (· + b (ix2 (0 : Fin 1) q)) (PlainDot.matmul_zero_apply d hlc hrc hln hrn hlb hrb hr hs prec l w p q)

end Idealize.ShloMosaic.BiasedDot

end
-- ==== Proof.KernelRow.lean ====
/-
  One block of the kernel's output, entry by entry, is the row network of FilmNet.

  At a grid point the body holds a block of 2048 rows of x and of cond and the whole weights: the two halves of
  the conditioning weight as separate [512, 256] operands, each bias as one row [1, 256]. Changing a float's
  format is the identity at the ideal values, every product accumulates into zero, and each bias row is
  broadcast over the 2048 rows; so entry (p, q) of what the body stores is `FilmNet.outRow` of row p of the two
  row blocks, whatever the blocks are.
-/
import proofs.«414267_j76768245448977_3_alg».proof.Proof.Gen.KernelIdeal.Value
import proofs.«414267_j76768245448977_3_alg».proof.Proof.FilmNet
import proofs.«414267_j76768245448977_3_alg».proof.Proof.LibBiasedDot

noncomputable section

namespace Cert.KernelIdeal.KernelRow

open Cert.KernelIdeal Cert.KernelIdeal.Gen Cert.KernelIdeal.Value Idealize.ShloMosaic Idealize.ShloMosaic.ValueIdx
open Cert.FilmNet

variable (P0 : FVec Ideal S2048x256 .f32) (P1 : FVec Ideal S2048x512 .f32) (P2 : FVec Ideal S512x256 .bf16)
  (P3 : FVec Ideal S1x256 .f32) (P4 : FVec Ideal S512x256 .bf16) (P5 : FVec Ideal S1x256 .f32)
  (P6 : FVec Ideal S256x256 .bf16) (P7 : FVec Ideal S1x256 .f32) (P8 : FVec Ideal S256x256 .bf16)
  (P9 : FVec Ideal S1x256 .f32)

/-- The block of first hidden rows as the body computes it: scale and shift from the conditioning block,
    applied to the x block, rectified. -/
def hid0 : FVec Ideal S2048x256 .f32 :=
  maximumf
    (addf
      (mulf
        (addf (matmul dot_S2048x512_S512x256_S2048x256_1_0_0_1_n_n none (truncf .bf16 P1 bitsLt_bf16_f32)
            (shapeCast S512x256 P2 shapeCasts_S512x256_S512x256) (constant S2048x256 .f32 0x00000000#32))
          (broadcastTo S2048x256 (shapeCast S1x256 P3 shapeCasts_S1x256_S1x256) broadcasts_S1x256_S2048x256))
        P0)
      (addf (matmul dot_S2048x512_S512x256_S2048x256_1_0_0_1_n_n none (truncf .bf16 P1 bitsLt_bf16_f32)
          (shapeCast S512x256 P4 shapeCasts_S512x256_S512x256) (constant S2048x256 .f32 0x00000000#32))
        (broadcastTo S2048x256 (shapeCast S1x256 P5 shapeCasts_S1x256_S1x256) broadcasts_S1x256_S2048x256)))
    (broadcast S2048x256 (Scalar.ofBits .f32 0x00000000#32))

/-- The block of second hidden rows as the body computes it. -/
def hid1 : FVec Ideal S2048x256 .f32 :=
  maximumf
    (addf (matmul dot_S2048x256_S256x256_S2048x256_1_0_0_1_n_n none (truncf .bf16 (hid0 P0 P1 P2 P3 P4 P5) bitsLt_bf16_f32)
        (shapeCast S256x256 P6 shapeCasts_S256x256_S256x256) (constant S2048x256 .f32 0x00000000#32))
      (broadcastTo S2048x256 (shapeCast S1x256 P7 shapeCasts_S1x256_S1x256) broadcasts_S1x256_S2048x256))
    (broadcast S2048x256 (Scalar.ofBits .f32 0x00000000#32))

/-- The payload of the last product is that product of the second hidden block with the last weight. -/
theorem pay2_eq : k0_pay2 P0 P1 P2 P3 P4 P5 P6 P7 P8
    = matmul dot_S2048x256_S256x256_S2048x256_1_0_0_1_n_n none (truncf .bf16 (hid1 P0 P1 P2 P3 P4 P5 P6 P7) bitsLt_bf16_f32)
        (shapeCast S256x256 P8 shapeCasts_S256x256_S256x256) (constant S2048x256 .f32 0x00000000#32) := rfl

/-- Entry (p, j) of the first hidden block. -/
theorem hid0_entry (p : Fin 2048) (j : Fin 256) :
    hid0 P0 P1 P2 P3 P4 P5 (ix2 p j)
      = modulated (fun j => P0 (ix2 p j)) (fun k => P1 (ix2 p k)) (fun k j => P2 (ix2 k j)) (fun k j => P4 (ix2 k j))
          (fun j => P3 (ix2 (0 : Fin 1) j)) (fun j => P5 (ix2 (0 : Fin 1) j)) j := by
  unfold hid0
  rw [maximumf_apply, addf_apply, mulf_apply,
    BiasedDot.apply dot_S2048x512_S512x256_S2048x256_1_0_0_1_n_n rfl rfl rfl rfl rfl rfl rfl rfl,
    BiasedDot.apply dot_S2048x512_S512x256_S2048x256_1_0_0_1_n_n rfl rfl rfl rfl rfl rfl rfl rfl]
  rfl

/-- Entry (p, j) of the second hidden block. -/
theorem hid1_entry (p : Fin 2048) (j : Fin 256) :
    hid1 P0 P1 P2 P3 P4 P5 P6 P7 (ix2 p j)
      = hidden (fun j => P0 (ix2 p j)) (fun k => P1 (ix2 p k)) (fun k j => P2 (ix2 k j)) (fun k j => P4 (ix2 k j))
          (fun j => P3 (ix2 (0 : Fin 1) j)) (fun j => P5 (ix2 (0 : Fin 1) j))
          (fun k j => P6 (ix2 k j)) (fun j => P7 (ix2 (0 : Fin 1) j)) j := by
  unfold hid1
  rw [maximumf_apply, BiasedDot.apply dot_S2048x256_S256x256_S2048x256_1_0_0_1_n_n rfl rfl rfl rfl rfl rfl rfl rfl]
  simp only [truncf_apply, hid0_entry]
  rfl

/-- Entry (p, q) of the block the body stores: the output row of row p of the x and cond blocks. -/
theorem block_entry (p : Fin 2048) (q : Fin 256) :
    E10 (F := Ideal) P0 P1 P2 P3 P4 P5 P6 P7 P8 P9 (ix2 p q)
      = outRow (fun j => P0 (ix2 p j)) (fun k => P1 (ix2 p k)) (fun k j => P2 (ix2 k j)) (fun k j => P4 (ix2 k j))
          (fun j => P3 (ix2 (0 : Fin 1) j)) (fun j => P5 (ix2 (0 : Fin 1) j))
          (fun k j => P6 (ix2 k j)) (fun j => P7 (ix2 (0 : Fin 1) j))
          (fun k j => P8 (ix2 k j)) (fun j => P9 (ix2 (0 : Fin 1) j)) q := by
  have e0 : ix10_0 (ix2 p q : S2048x256.Idx) = ix2 p q := funext fun a => Fin.ext (by
    match a with | ⟨0, _⟩ => rfl | ⟨1, _⟩ => rfl)
  have e1 : ix10_1 (ix2 p q : S2048x256.Idx) = ix2 (0 : Fin 1) q := funext fun a => Fin.ext (by
    match a with | ⟨0, _⟩ => rfl | ⟨1, _⟩ => rfl)
  have e2 : ix10_2 (ix2 p q : S2048x256.Idx) = ix2 p q := funext fun a => Fin.ext (by
    match a with | ⟨0, _⟩ => rfl | ⟨1, _⟩ => rfl)
  show FloatOps.addf (FloatOps.addf (k0_pay2 P0 P1 P2 P3 P4 P5 P6 P7 P8 (ix10_0 (ix2 p q))) (P9 (ix10_1 (ix2 p q)))) (P0 (ix10_2 (ix2 p q))) = _
  rw [e0, e1, e2, pay2_eq, shapeCast_self]
  have hm := PlainDot.matmul_zero_apply dot_S2048x256_S256x256_S2048x256_1_0_0_1_n_n rfl rfl rfl rfl rfl rfl rfl rfl none
    (truncf .bf16 (hid1 P0 P1 P2 P3 P4 P5 P6 P7) bitsLt_bf16_f32) P8 p q
  simp only [truncf_apply, hid1_entry] at hm
  unfold outRow affine
  exact congrArg (fun s => s + P9 (ix2 (0 : Fin 1) q) + P0 (ix2 p q)) hm

end Cert.KernelIdeal.KernelRow

end
-- ==== Proof.Blocks.lean ====
/-
  From the kernel's blocks to its result array.

  The grid has 32 points; point t holds rows 2048·t … 2048·t + 2047 of x, of cond and of the output, and
  every weight and bias whole. The host prepares the weights before the launch: the left and the right half
  of the conditioning weight's columns and of its bias, each bias as a one-row matrix; changing a float's format is
  the identity at the ideal values. So what point t writes back is block t of `FilmNet.result` of the eight
  arguments; the 32 blocks tile the output array, which therefore ends holding `FilmNet.result`.
-/
import proofs.«414267_j76768245448977_3_alg».proof.Proof.Gen.KernelIdeal.Value
import proofs.«414267_j76768245448977_3_alg».proof.Proof.KernelRow
import Idealize.ShloMosaic.Lib.StableHlo.Run
import Idealize.ShloMosaic.Lib.ValueLayout

noncomputable section

namespace Cert.KernelIdeal.Blocks

open Cert.KernelIdeal Cert.KernelIdeal.Gen Cert.KernelIdeal.Value Idealize.ShloMosaic Idealize.ShloMosaic.ValueIdx
open Idealize.ShloMosaic.TcCoe Idealize.SL.Sem Idealize.ShloMosaic.StableHlo Cert.FilmNet
open Idealize.ShloMosaic.Pipeline (Dat)

variable (m : (ℓ : Loc nD τ sig) → Buf (Elt Ideal) ℓ) (ρ : Dev nD → PrngReg)

/-! ## The eight arguments as arrays of extended reals -/

abbrev argX (c : Dev nD) : FVec Ideal S65536x256 .f32 := m ((c : Thread nD τ).loc main_arg0)
abbrev argCond (c : Dev nD) : FVec Ideal S65536x512 .f32 := m ((c : Thread nD τ).loc main_arg1)
abbrev argWf (c : Dev nD) : FVec Ideal S512x512 .f32 := m ((c : Thread nD τ).loc main_arg2)
abbrev argBf (c : Dev nD) : FVec Ideal S512 .f32 := m ((c : Thread nD τ).loc main_arg3)
abbrev argW1 (c : Dev nD) : FVec Ideal S256x256 .f32 := m ((c : Thread nD τ).loc main_arg4)
abbrev argB1 (c : Dev nD) : FVec Ideal S256 .f32 := m ((c : Thread nD τ).loc main_arg5)
abbrev argW2 (c : Dev nD) : FVec Ideal S256x256 .f32 := m ((c : Thread nD τ).loc main_arg6)
abbrev argB2 (c : Dev nD) : FVec Ideal S256 .f32 := m ((c : Thread nD τ).loc main_arg7)

/-- The result array the kernel ends with. -/
abbrev goal (c : Dev nD) : FVec Ideal S65536x256 .f32 :=
  result (argX m c) (argCond m c) (argWf m c) (argBf m c) (argW1 m c) (argB1 m c) (argW2 m c) (argB2 m c)

/-! ## What the host hands the launch, read at an entry -/

/-- The scale weight: the left half of the conditioning weight's columns. -/
theorem scaleW_entry (c : Dev nD) (k : Fin 512) (j : Fin 256) :
    (V m c main_call0_v1 : FVec Ideal S512x256 .bf16) (ix2 k j) = argWf m c (ix2 k (lo j)) := by
  have e : (V m c main_call0_v1 : FVec Ideal S512x256 .bf16)
      = truncf .bf16 (extractStridedSlice S512x256 ![0, 0] (argWf m c) slices_S512x512_S512x256_0_0) bitsLt_bf16_f32 := by
    dsimp only [Gen.V, Gen.hostOps0]; after_results; rfl
  rw [e, truncf_apply]
  exact slice2_axis1_apply 0 _ _ k j (lo j) (Nat.zero_add _).symm

/-- The shift weight: the right half of the conditioning weight's columns. -/
theorem shiftW_entry (c : Dev nD) (k : Fin 512) (j : Fin 256) :
    (V m c main_call0_v3 : FVec Ideal S512x256 .bf16) (ix2 k j) = argWf m c (ix2 k (hi j)) := by
  have e : (V m c main_call0_v3 : FVec Ideal S512x256 .bf16)
      = truncf .bf16 (extractStridedSlice S512x256 ![0, 256] (argWf m c) slices_S512x512_S512x256_0_256) bitsLt_bf16_f32 := by
    dsimp only [Gen.V, Gen.hostOps0]; after_results; rfl
  rw [e, truncf_apply]
  exact slice2_axis1_apply 256 _ _ k j (hi j) rfl

/-- The scale bias as one row: the left half of the conditioning bias. -/
theorem scaleB_entry (c : Dev nD) (j : Fin 256) :
    (V m c main_call0_v5 : FVec Ideal S1x256 .f32) (ix2 (0 : Fin 1) j) = argBf m c (ix1 (lo j)) := by
  have e : (V m c main_call0_v5 : FVec Ideal S1x256 .f32)
      = shapeCast S1x256 (extractStridedSlice S256 ![0] (argBf m c) slices_S512_S256_0) shapeCasts_S256_S1x256 := by
    dsimp only [Gen.V, Gen.hostOps0]; after_results; rfl
  rw [e, shapeCast_a_1a_apply]
  exact extractStridedSlice_apply ![0] (argBf m c) slices_S512_S256_0 (ix1 j) (ix1 (lo j)) (fun a => match a with
    | ⟨0, _⟩ => (Nat.zero_add _).symm)

/-- The shift bias as one row: the right half of the conditioning bias. -/
theorem shiftB_entry (c : Dev nD) (j : Fin 256) :
    (V m c main_call0_v7 : FVec Ideal S1x256 .f32) (ix2 (0 : Fin 1) j) = argBf m c (ix1 (hi j)) := by
  have e : (V m c main_call0_v7 : FVec Ideal S1x256 .f32)
      = shapeCast S1x256 (extractStridedSlice S256 ![256] (argBf m c) slices_S512_S256_256) shapeCasts_S256_S1x256 := by
    dsimp only [Gen.V, Gen.hostOps0]; after_results; rfl
  rw [e, shapeCast_a_1a_apply]
  exact extractStridedSlice_apply ![256] (argBf m c) slices_S512_S256_256 (ix1 j) (ix1 (hi j)) (fun a => match a with
    | ⟨0, _⟩ => rfl)

/-- The first layer's weight, its format changed. -/
theorem w1_entry (c : Dev nD) (k j : Fin 256) :
    (V m c main_call0_v8 : FVec Ideal S256x256 .bf16) (ix2 k j) = argW1 m c (ix2 k j) := by
  have e : (V m c main_call0_v8 : FVec Ideal S256x256 .bf16) = truncf .bf16 (argW1 m c) bitsLt_bf16_f32 := by
    dsimp only [Gen.V, Gen.hostOps0]; after_results; rfl
  rw [e, truncf_apply]

/-- The second layer's weight, its format changed. -/
theorem w2_entry (c : Dev nD) (k j : Fin 256) :
    (V m c main_call0_v9 : FVec Ideal S256x256 .bf16) (ix2 k j) = argW2 m c (ix2 k j) := by
  have e : (V m c main_call0_v9 : FVec Ideal S256x256 .bf16) = truncf .bf16 (argW2 m c) bitsLt_bf16_f32 := by
    dsimp only [Gen.V, Gen.hostOps0]; after_results; rfl
  rw [e, truncf_apply]

/-- The first layer's bias as one row. -/
theorem b1_entry (c : Dev nD) (j : Fin 256) :
    (V m c main_call0_v10 : FVec Ideal S1x256 .f32) (ix2 (0 : Fin 1) j) = argB1 m c (ix1 j) := by
  have e : (V m c main_call0_v10 : FVec Ideal S1x256 .f32) = shapeCast S1x256 (argB1 m c) shapeCasts_S256_S1x256 := by
    dsimp only [Gen.V, Gen.hostOps0]; after_results; rfl
  rw [e, shapeCast_a_1a_apply]

/-- The second layer's bias as one row. -/
theorem b2_entry (c : Dev nD) (j : Fin 256) :
    (V m c main_call0_v11 : FVec Ideal S1x256 .f32) (ix2 (0 : Fin 1) j) = argB2 m c (ix1 j) := by
  have e : (V m c main_call0_v11 : FVec Ideal S1x256 .f32) = shapeCast S1x256 (argB2 m c) shapeCasts_S256_S1x256 := by
    dsimp only [Gen.V, Gen.hostOps0]; after_results; rfl
  rw [e, shapeCast_a_1a_apply]

/-! ## The windows' block indices over the 32 points -/

/-- The row windows (x, cond, the output) are at block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The weight and bias windows stay at block (0, 0). -/
theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## Each input block at an entry -/

/-- Row p of point t's x block is row 2048·t + p of x. -/
theorem xblk_entry (c : Dev nD) (t : Fin cfg0.N) (p : Fin 2048) (j : Fin 256) (n : Fin 65536)
    (hn : n.val = 2048 * t.val + p.val) :
    (iblk m c 0 t : FVec Ideal S2048x256 .f32) (ix2 p j) = argX m c (ix2 n j) := by
  obtain ⟨e0, e1, -⟩ := idx_rows t
  unfold iblk
  rw [View.read_apply]
  show (V m c main_arg0 : FVec Ideal S65536x256 .f32) _ = _
  rw [V_main_arg0]
  show argX m c _ = argX m c _
  congr 1; funext a; apply Fin.ext
  match a with
  | ⟨0, _⟩ => show win0_0.index t (0 : Fin 2) * 2048 + 1 * p.val = n.val; rw [e0, hn]; omega
  | ⟨1, _⟩ => show win0_0.index t (1 : Fin 2) * 256 + 1 * j.val = j.val; rw [e1]; omega

/-- Row p of point t's cond block is row 2048·t + p of cond. -/
theorem condblk_entry (c : Dev nD) (t : Fin cfg0.N) (p : Fin 2048) (k : Fin 512) (n : Fin 65536)
    (hn : n.val = 2048 * t.val + p.val) :
    (iblk m c 1 t : FVec Ideal S2048x512 .f32) (ix2 p k) = argCond m c (ix2 n k) := by
  obtain ⟨-, -, e0, e1, -⟩ := idx_rows t
  unfold iblk
  rw [View.read_apply]
  show (V m c main_arg1 : FVec Ideal S65536x512 .f32) _ = _
  rw [V_main_arg1]
  show argCond m c _ = argCond m c _
  congr 1; funext a; apply Fin.ext
  match a with
  | ⟨0, _⟩ => show win0_1.index t (0 : Fin 2) * 2048 + 1 * p.val = n.val; rw [e0, hn]; omega
  | ⟨1, _⟩ => show win0_1.index t (1 : Fin 2) * 512 + 1 * k.val = k.val; rw [e1]; omega

theorem blk2_entry (c : Dev nD) (t : Fin cfg0.N) (k : Fin 512) (j : Fin 256) :
    (iblk m c 2 t : FVec Ideal S512x256 .bf16) (ix2 k j) = argWf m c (ix2 k (lo j)) := by
  obtain ⟨⟨e0, e1⟩, -⟩ := idx_whole t
  unfold iblk
  rw [View.read_apply]
  refine (congrArg (V m c main_call0_v1 : FVec Ideal S512x256 .bf16) (?_ : _ = ix2 k j)).trans (scaleW_entry m c k j)
  funext a; apply Fin.ext
  match a with
  | ⟨0, _⟩ => show win0_2.index t (0 : Fin 2) * 512 + 1 * k.val = k.val; rw [e0]; omega
  | ⟨1, _⟩ => show win0_2.index t (1 : Fin 2) * 256 + 1 * j.val = j.val; rw [e1]; omega

theorem blk3_entry (c : Dev nD) (t : Fin cfg0.N) (j : Fin 256) :
    (iblk m c 3 t : FVec Ideal S1x256 .f32) (ix2 (0 : Fin 1) j) = argBf m c (ix1 (lo j)) := by
  obtain ⟨-, ⟨e0, e1⟩, -⟩ := idx_whole t
  unfold iblk
  rw [View.read_apply]
  refine (congrArg (V m c main_call0_v5 : FVec Ideal S1x256 .f32) (?_ : _ = ix2 (0 : Fin 1) j)).trans (scaleB_entry m c j)
  funext a; apply Fin.ext
  match a with
  | ⟨0, _⟩ => show win0_3.index t (0 : Fin 2) * 1 + 1 * 0 = 0; rw [e0]
  | ⟨1, _⟩ => show win0_3.index t (1 : Fin 2) * 256 + 1 * j.val = j.val; rw [e1]; omega

theorem blk4_entry (c : Dev nD) (t : Fin cfg0.N) (k : Fin 512) (j : Fin 256) :
    (iblk m c 4 t : FVec Ideal S512x256 .bf16) (ix2 k j) = argWf m c (ix2 k (hi j)) := by
  obtain ⟨-, -, ⟨e0, e1⟩, -⟩ := idx_whole t
  unfold iblk
  rw [View.read_apply]
  refine (congrArg (V m c main_call0_v3 : FVec Ideal S512x256 .bf16) (?_ : _ = ix2 k j)).trans (shiftW_entry m c k j)
  funext a; apply Fin.ext
  match a with
  | ⟨0, _⟩ => show win0_4.index t (0 : Fin 2) * 512 + 1 * k.val = k.val; rw [e0]; omega
  | ⟨1, _⟩ => show win0_4.index t (1 : Fin 2) * 256 + 1 * j.val = j.val; rw [e1]; omega

theorem blk5_entry (c : Dev nD) (t : Fin cfg0.N) (j : Fin 256) :
    (iblk m c 5 t : FVec Ideal S1x256 .f32) (ix2 (0 : Fin 1) j) = argBf m c (ix1 (hi j)) := by
  obtain ⟨-, -, -, ⟨e0, e1⟩, -⟩ := idx_whole t
  unfold iblk
  rw [View.read_apply]
  refine (congrArg (V m c main_call0_v7 : FVec Ideal S1x256 .f32) (?_ : _ = ix2 (0 : Fin 1) j)).trans (shiftB_entry m c j)
  funext a; apply Fin.ext
  match a with
  | ⟨0, _⟩ => show win0_5.index t (0 : Fin 2) * 1 + 1 * 0 = 0; rw [e0]
  | ⟨1, _⟩ => show win0_5.index t (1 : Fin 2) * 256 + 1 * j.val = j.val; rw [e1]; omega

theorem blk6_entry (c : Dev nD) (t : Fin cfg0.N) (k j : Fin 256) :
    (iblk m c 6 t : FVec Ideal S256x256 .bf16) (ix2 k j) = argW1 m c (ix2 k j) := by
  obtain ⟨-, -, -, -, ⟨e0, e1⟩, -⟩ := idx_whole t
  unfold iblk
  rw [View.read_apply]
  refine (congrArg (V m c main_call0_v8 : FVec Ideal S256x256 .bf16) (?_ : _ = ix2 k j)).trans (w1_entry m c k j)
  funext a; apply Fin.ext
  match a with
  | ⟨0, _⟩ => show win0_6.index t (0 : Fin 2) * 256 + 1 * k.val = k.val; rw [e0]; omega
  | ⟨1, _⟩ => show win0_6.index t (1 : Fin 2) * 256 + 1 * j.val = j.val; rw [e1]; omega

theorem blk7_entry (c : Dev nD) (t : Fin cfg0.N) (j : Fin 256) :
    (iblk m c 7 t : FVec Ideal S1x256 .f32) (ix2 (0 : Fin 1) j) = argB1 m c (ix1 j) := by
  obtain ⟨-, -, -, -, -, ⟨e0, e1⟩, -⟩ := idx_whole t
  unfold iblk
  rw [View.read_apply]
  refine (congrArg (V m c main_call0_v10 : FVec Ideal S1x256 .f32) (?_ : _ = ix2 (0 : Fin 1) j)).trans (b1_entry m c j)
  funext a; apply Fin.ext
  match a with
  | ⟨0, _⟩ => show win0_7.index t (0 : Fin 2) * 1 + 1 * 0 = 0; rw [e0]
  | ⟨1, _⟩ => show win0_7.index t (1 : Fin 2) * 256 + 1 * j.val = j.val; rw [e1]; omega

theorem blk8_entry (c : Dev nD) (t : Fin cfg0.N) (k j : Fin 256) :
    (iblk m c 8 t : FVec Ideal S256x256 .bf16) (ix2 k j) = argW2 m c (ix2 k j) := by
  obtain ⟨-, -, -, -, -, -, ⟨e0, e1⟩, -⟩ := idx_whole t
  unfold iblk
  rw [View.read_apply]
  refine (congrArg (V m c main_call0_v9 : FVec Ideal S256x256 .bf16) (?_ : _ = ix2 k j)).trans (w2_entry m c k j)
  funext a; apply Fin.ext
  match a with
  | ⟨0, _⟩ => show win0_8.index t (0 : Fin 2) * 256 + 1 * k.val = k.val; rw [e0]; omega
  | ⟨1, _⟩ => show win0_8.index t (1 : Fin 2) * 256 + 1 * j.val = j.val; rw [e1]; omega

theorem blk9_entry (c : Dev nD) (t : Fin cfg0.N) (j : Fin 256) :
    (iblk m c 9 t : FVec Ideal S1x256 .f32) (ix2 (0 : Fin 1) j) = argB2 m c (ix1 j) := by
  obtain ⟨-, -, -, -, -, -, -, e0, e1⟩ := idx_whole t
  unfold iblk
  rw [View.read_apply]
  refine (congrArg (V m c main_call0_v11 : FVec Ideal S1x256 .f32) (?_ : _ = ix2 (0 : Fin 1) j)).trans (b2_entry m c j)
  funext a; apply Fin.ext
  match a with
  | ⟨0, _⟩ => show win0_9.index t (0 : Fin 2) * 1 + 1 * 0 = 0; rw [e0]
  | ⟨1, _⟩ => show win0_9.index t (1 : Fin 2) * 256 + 1 * j.val = j.val; rw [e1]; omega

/-! ## What a point writes back, the cover, the array -/

theorem hz : (![0, 0] : Fin 2 → Nat) = fun _ => 0 := funext fun a => by fin_cases a <;> rfl

/-- The output row depends on its ten operands only through their entries. -/
theorem outRow_congr {x x' : Fin 256 → EReal} {cnd cnd' : Fin 512 → EReal} {wg wg' wb wb' : Fin 512 → Fin 256 → EReal}
    {bg bg' bb bb' : Fin 256 → EReal} {w1 w1' w2 w2' : Fin 256 → Fin 256 → EReal} {b1 b1' b2 b2' : Fin 256 → EReal}
    (hx : ∀ j, x j = x' j) (hc : ∀ k, cnd k = cnd' k) (hwg : ∀ k j, wg k j = wg' k j) (hwb : ∀ k j, wb k j = wb' k j)
    (hbg : ∀ j, bg j = bg' j) (hbb : ∀ j, bb j = bb' j) (hw1 : ∀ k j, w1 k j = w1' k j) (hb1 : ∀ j, b1 j = b1' j)
    (hw2 : ∀ k j, w2 k j = w2' k j) (hb2 : ∀ j, b2 j = b2' j) (q : Fin 256) :
    outRow x cnd wg wb bg bb w1 b1 w2 b2 q = outRow x' cnd' wg' wb' bg' bb' w1' b1' w2' b2' q := by
  obtain rfl : x = x' := funext hx
  obtain rfl : cnd = cnd' := funext hc
  obtain rfl : wg = wg' := funext fun k => funext (hwg k)
  obtain rfl : wb = wb' := funext fun k => funext (hwb k)
  obtain rfl : bg = bg' := funext hbg
  obtain rfl : bb = bb' := funext hbb
  obtain rfl : w1 = w1' := funext fun k => funext (hw1 k)
  obtain rfl : b1 = b1' := funext hb1
  obtain rfl : w2 = w2' := funext fun k => funext (hw2 k)
  obtain rfl : b2 = b2' := funext hb2
  rfl

/-- WHAT POINT t WRITES BACK is block t of the result array. -/
theorem flushed_eq (c : Dev nD) (t : Fin cfg0.N) :
    (dats m 0 c).flushed 10 t = ((cfg0.win 10).blk t).view.read (Elt Ideal) (goal m c) := by
  rw [Value.flushed10]
  unfold out0_10
  simp only [View.ld_unit_zero (S := S2048x256) hz, View.ld_unit_zero (S := S2048x512) hz,
    View.ld_unit_zero (S := S512x256) hz, View.ld_unit_zero (S := S1x256) hz, View.ld_unit_zero (S := S256x256) hz]
  refine funext fun (y : S2048x256.Idx) => ?_
  obtain ⟨p, q, rfl⟩ : ∃ (p : Fin 2048) (q : Fin 256), y = ix2 p q := ⟨y 0, y 1, eq_ix2 y⟩
  have hN : cfg0.N = 32 := N_0
  have ht : t.val < 32 := hN ▸ t.isLt
  obtain ⟨-, -, -, -, eo0, eo1⟩ := idx_rows t
  have hp : p.val < 2048 := p.isLt
  have hemb : ((cfg0.win 10).blk t).view.emb (ix2 p q)
      = (ix2 (⟨2048 * t.val + p.val, by omega⟩ : Fin 65536) q : S65536x256.Idx) := by
    funext a; apply Fin.ext
    match a with
    | ⟨0, _⟩ => show win0_10.index t (0 : Fin 2) * 2048 + 1 * p.val = 2048 * t.val + p.val; rw [eo0]; omega
    | ⟨1, _⟩ => show win0_10.index t (1 : Fin 2) * 256 + 1 * q.val = q.val; rw [eo1]; omega
  rw [View.read_apply, hemb]
  refine (Value.canon10_eq (F := Ideal) (iblk m c 0 t) (iblk m c 1 t) (iblk m c 2 t) (iblk m c 3 t) (iblk m c 4 t)
    (iblk m c 5 t) (iblk m c 6 t) (iblk m c 7 t) (iblk m c 8 t) (iblk m c 9 t) (ix2 p q)).trans ?_
  refine (KernelRow.block_entry (iblk m c 0 t) (iblk m c 1 t) (iblk m c 2 t) (iblk m c 3 t) (iblk m c 4 t)
    (iblk m c 5 t) (iblk m c 6 t) (iblk m c 7 t) (iblk m c 8 t) (iblk m c 9 t) p q).trans ?_
  exact outRow_congr (fun j => xblk_entry m c t p j _ rfl) (fun k => condblk_entry m c t p k _ rfl)
    (fun k j => blk2_entry m c t k j) (fun k j => blk4_entry m c t k j)
    (fun j => blk3_entry m c t j) (fun j => blk5_entry m c t j)
    (fun k j => blk6_entry m c t k j) (fun j => blk7_entry m c t j)
    (fun k j => blk8_entry m c t k j) (fun j => blk9_entry m c t j) q

/-- An index of the output array is in point t's block iff each coordinate is in the block's range. -/
theorem mem_blk (t : Fin cfg0.N) (i : S65536x256.Idx) :
    i ∈ ((cfg0.win 10).blk t).view.set ↔ ∀ a : Fin 2, win0_10.index t a * S2048x256.size a ≤ (i a).val
      ∧ (i a).val < win0_10.index t a * S2048x256.size a + S2048x256.size a := by
  show i ∈ ((View.whole main_v0).slice (win0_10.rect t)).set ↔ _
  rw [View.set_slice_whole, Rect.mem_set_unit]
  exact Iff.rfl

/-- Every row of the output lies in the block of the point  row / 2048. -/
theorem cover (i : S65536x256.Idx) :
    ∃ t : Fin cfg0.N, (cfg0.win 10).flush t = true ∧ i ∈ ((cfg0.win 10).blk t).view.set := by
  have hi0 : (i 0).val < 65536 := (i 0).isLt
  have hi1 : (i 1).val < 256 := (i 1).isLt
  have hN : cfg0.N = 32 := N_0
  refine ⟨⟨(i 0).val / 2048, by rw [hN]; omega⟩, flush0_10 _, ?_⟩
  obtain ⟨-, -, -, -, eo0, eo1⟩ := idx_rows ⟨(i 0).val / 2048, by rw [hN]; omega⟩
  rw [mem_blk]
  intro a
  match a with
  | ⟨0, _⟩ =>
    show win0_10.index _ (0 : Fin 2) * 2048 ≤ (i 0).val ∧ (i 0).val < win0_10.index _ (0 : Fin 2) * 2048 + 2048
    rw [eo0]; show (i 0).val / 2048 * 2048 ≤ (i 0).val ∧ (i 0).val < (i 0).val / 2048 * 2048 + 2048; omega
  | ⟨1, _⟩ =>
    show win0_10.index _ (1 : Fin 2) * 256 ≤ (i 1).val ∧ (i 1).val < win0_10.index _ (1 : Fin 2) * 256 + 256
    rw [eo1]; omega

/-- THE OUTPUT ARRAY after the run is the result array. -/
theorem final (c : Dev nD) : (dats m 0 c).arrAt 10 cfg0.N = goal m c :=
  (dats m 0 c).arrAt_eq_of_cover 10 (goal m c) (fun t _ => flushed_eq m c t) cover

/-- The run, read: the output array ends at `FilmNet.result` of the arguments, the arguments unchanged. -/
theorem run : θ_run defs (onTc (τ := τ) (main (F := Ideal))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Blocks

end
-- ==== Proof.lean ====
/-
  The kernel is a FiLM-conditioned residual network of two layers over 65536 rows: each row x of 256 features is
  scaled and shifted by two affine images of its conditioning row of 512 features, rectified, sent through two
  more affine layers (the first rectified), and added back to x. The reference forms the scale and the shift as
  the two column halves of ONE 512-wide product with bias; the kernel gets the halves as separate weights and
  biases, cut by the host before the launch, works on 32 blocks of 2048 rows, and feeds its products operands
  in a narrower float format. At the ideal values a change of format is the identity, a product accumulated
  into zero is the plain sum, and a column of a half is the column of the whole, so both programs end with the
  same array, `FilmNet.result` of the eight arguments, entry by entry: no algebraic law is needed, and the
  precondition is never opened.

  The modules: `FilmNet` (the network, one row at a time), `RefRow` (the reference's stages are that network),
  `KernelRow` (one block of the kernel's output is that network, over `LibPlainDot` / `LibBiasedDot`: a product
  and an affine layer read at an entry), `Blocks` (the host's cuts, the blocks, the cover: the kernel's run).
  No operation of the kernel was rewritten for its ideal reading, so `preserves` is trivial.
-/
import proofs.«414267_j76768245448977_3_alg».proof.Defs
import proofs.«414267_j76768245448977_3_alg».proof.Proof.Gen.Kernel
import proofs.«414267_j76768245448977_3_alg».proof.Proof.Gen.Kernel.Skeleton
import proofs.«414267_j76768245448977_3_alg».proof.Proof.Gen.Kernel.Launch
import proofs.«414267_j76768245448977_3_alg».proof.Proof.Gen.Kernel.Points
import proofs.«414267_j76768245448977_3_alg».proof.Proof.Gen.Kernel.Frame
import proofs.«414267_j76768245448977_3_alg».proof.Proof.Gen.KernelIdeal
import proofs.«414267_j76768245448977_3_alg».proof.Proof.Gen.KernelIdeal.Skeleton
import proofs.«414267_j76768245448977_3_alg».proof.Proof.Gen.KernelIdeal.Launch
import proofs.«414267_j76768245448977_3_alg».proof.Proof.Gen.KernelIdeal.Points
import proofs.«414267_j76768245448977_3_alg».proof.Proof.Gen.KernelIdeal.Frame
import proofs.«414267_j76768245448977_3_alg».proof.Proof.Gen.ReferenceIdeal
import proofs.«414267_j76768245448977_3_alg».proof.Proof.Gen.KernelIdeal.Value
import proofs.«414267_j76768245448977_3_alg».proof.Proof.Gen.ReferenceIdeal.Run
import proofs.«414267_j76768245448977_3_alg».proof.Proof.Gen.ReferenceIdeal.Read
import proofs.«414267_j76768245448977_3_alg».proof.Proof.Gen.Pre_finite_inputs
import proofs.«414267_j76768245448977_3_alg».proof.Proof.RefRow
import proofs.«414267_j76768245448977_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with `FilmNet.result` of them: the
    kernel block by block, the reference stage by stage. -/
theorem algebraic : Cert.algebraic_KernelIdeal_ReferenceIdeal := by
  intro m ρ m' ρ' _ hagree
  refine ⟨fun c => Cert.KernelIdeal.Blocks.goal m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefRow.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
